-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v107)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64x128 .f32) (main_arg9 : FVec F S64 .f32) (main_v33 : IVec S_ 1) : IVec S_ 1 :=
  let main_v34 : FVec F S64x128 .f32 := Host.absf main_arg8
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S64x128 .f32) (main_arg9 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S64x128 .f32) (main_arg9 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S106496x128 : Shape := ⟨2, ![106496, 128]⟩
abbrev S8192x128 : Shape := ⟨2, ![8192, 128]⟩
abbrev S1600000x128 : Shape := ⟨2, ![1600000, 128]⟩
abbrev S1x128 : Shape := ⟨2, ![1, 128]⟩
abbrev S106496x64 : Shape := ⟨2, ![106496, 64]⟩
abbrev S8192x64 : Shape := ⟨2, ![8192, 64]⟩
abbrev S128x64 : Shape := ⟨2, ![128, 64]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 155
  | .vmem => 20
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S64x128, .f32⟩
  | 9 => ⟨S64, .f32⟩
  | 10 => ⟨S1x1600000, .i32⟩
  | 11 => ⟨S1600000, .i32⟩
  | 12 => ⟨S1x1600000, .i32⟩
  | 13 => ⟨S1600000, .i32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S100000, .i1⟩
  | 23 => ⟨S_, .f32⟩
  | 24 => ⟨S100000, .f32⟩
  | 25 => ⟨S100000, .f32⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000, .f32⟩
  | 49 => ⟨S1600000, .f32⟩
  | 50 => ⟨S_, .i32⟩
  | 51 => ⟨S_, .f32⟩
  | 52 => ⟨S106496x128, .f32⟩
  | 53 => ⟨S106496x128, .f32⟩
  | 54 => ⟨S100000x128, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x128, .f32⟩
  | 64 => ⟨S1600000x1, .f32⟩
  | 65 => ⟨S1600000x128, .f32⟩
  | 66 => ⟨S1600000x128, .f32⟩
  | 67 => ⟨S_, .f32⟩
  | 68 => ⟨S100000x128, .f32⟩
  | 69 => ⟨S1600000x1, .i32⟩
  | 70 => ⟨S100000x128, .f32⟩
  | 71 => ⟨S1x128, .f32⟩
  | 72 => ⟨S100000x128, .f32⟩
  | 73 => ⟨S100000x128, .f32⟩
  | 74 => ⟨S_, .f32⟩
  | 75 => ⟨S100000x128, .f32⟩
  | 76 => ⟨S100000x128, .f32⟩
  | 77 => ⟨S_, .i32⟩
  | 78 => ⟨S_, .f32⟩
  | 79 => ⟨S106496x128, .f32⟩
  | 80 => ⟨S106496x128, .f32⟩
  | 81 => ⟨S100000x128, .f32⟩
  | 82 => ⟨S_, .i32⟩
  | 83 => ⟨S1600000, .i32⟩
  | 84 => ⟨S1600000, .i1⟩
  | 85 => ⟨S_, .i32⟩
  | 86 => ⟨S1600000, .i32⟩
  | 87 => ⟨S1600000, .i32⟩
  | 88 => ⟨S1600000, .i32⟩
  | 89 => ⟨S1600000x1, .i32⟩
  | 90 => ⟨S1600000x128, .f32⟩
  | 91 => ⟨S1600000x1, .f32⟩
  | 92 => ⟨S1600000x128, .f32⟩
  | 93 => ⟨S1600000x128, .f32⟩
  | 94 => ⟨S_, .f32⟩
  | 95 => ⟨S100000x128, .f32⟩
  | 96 => ⟨S1600000x1, .i32⟩
  | 97 => ⟨S100000x128, .f32⟩
  | 98 => ⟨S1x128, .f32⟩
  | 99 => ⟨S100000x128, .f32⟩
  | 100 => ⟨S100000x128, .f32⟩
  | 101 => ⟨S_, .f32⟩
  | 102 => ⟨S100000x128, .f32⟩
  | 103 => ⟨S100000x128, .f32⟩
  | 104 => ⟨S_, .i32⟩
  | 105 => ⟨S_, .f32⟩
  | 106 => ⟨S106496x128, .f32⟩
  | 107 => ⟨S106496x128, .f32⟩
  | 108 => ⟨S100000x128, .f32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1600000x128, .f32⟩
  | 118 => ⟨S1600000x1, .f32⟩
  | 119 => ⟨S1600000x128, .f32⟩
  | 120 => ⟨S1600000x128, .f32⟩
  | 121 => ⟨S_, .f32⟩
  | 122 => ⟨S100000x128, .f32⟩
  | 123 => ⟨S1600000x1, .i32⟩
  | 124 => ⟨S100000x128, .f32⟩
  | 125 => ⟨S1x128, .f32⟩
  | 126 => ⟨S100000x128, .f32⟩
  | 127 => ⟨S100000x128, .f32⟩
  | _ => ⟨S100000x128, .f32⟩

abbrev hbmTy0_1 (i : Nat) : BufTy := match i % 128 with
  | 0 => ⟨S_, .f32⟩
  | 1 => ⟨S100000x128, .f32⟩
  | 2 => ⟨S100000x128, .f32⟩
  | 3 => ⟨S_, .i32⟩
  | 4 => ⟨S_, .f32⟩
  | 5 => ⟨S106496x128, .f32⟩
  | 6 => ⟨S106496x64, .f32⟩
  | 7 => ⟨S100000x64, .f32⟩
  | 8 => ⟨S_, .i32⟩
  | 9 => ⟨S1600000, .i32⟩
  | 10 => ⟨S1600000, .i1⟩
  | 11 => ⟨S_, .i32⟩
  | 12 => ⟨S1600000, .i32⟩
  | 13 => ⟨S1600000, .i32⟩
  | 14 => ⟨S1600000, .i32⟩
  | 15 => ⟨S1600000x1, .i32⟩
  | 16 => ⟨S1600000x64, .f32⟩
  | 17 => ⟨S1600000x1, .f32⟩
  | 18 => ⟨S1600000x64, .f32⟩
  | 19 => ⟨S1600000x64, .f32⟩
  | 20 => ⟨S_, .f32⟩
  | 21 => ⟨S100000x64, .f32⟩
  | 22 => ⟨S1600000x1, .i32⟩
  | 23 => ⟨S100000x64, .f32⟩
  | 24 => ⟨S1x64, .f32⟩
  | 25 => ⟨S100000x64, .f32⟩
  | 26 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S8192x128, .f32⟩
  | .local _ .vmem, ⟨1, _⟩ => ⟨S8192x128, .f32⟩
  | .local _ .vmem, ⟨2, _⟩ => ⟨S128x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S8192x128, .f32⟩
  | .local _ .vmem, ⟨7, _⟩ => ⟨S128x128, .f32⟩
  | .local _ .vmem, ⟨8, _⟩ => ⟨S8192x128, .f32⟩
  | .local _ .vmem, ⟨9, _⟩ => ⟨S8192x128, .f32⟩
  | .local _ .vmem, ⟨10, _⟩ => ⟨S8192x128, .f32⟩
  | .local _ .vmem, ⟨11, _⟩ => ⟨S8192x128, .f32⟩
  | .local _ .vmem, ⟨12, _⟩ => ⟨S128x128, .f32⟩
  | .local _ .vmem, ⟨13, _⟩ => ⟨S8192x128, .f32⟩
  | .local _ .vmem, ⟨14, _⟩ => ⟨S8192x128, .f32⟩
  | .local _ .vmem, ⟨15, _⟩ => ⟨S8192x128, .f32⟩
  | .local _ .vmem, ⟨16, _⟩ => ⟨S8192x128, .f32⟩
  | .local _ .vmem, ⟨17, _⟩ => ⟨S64x128, .f32⟩
  | .local _ .vmem, ⟨18, _⟩ => ⟨S8192x64, .f32⟩
  | .local _ .vmem, ⟨19, _⟩ => ⟨S8192x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_5 : Ref sig .tc := ⟨.hbm, 40, rfl⟩
abbrev main_v21 : Ref sig .tc := ⟨.hbm, 41, rfl⟩
abbrev main_v22 : Ref sig .tc := ⟨.hbm, 42, rfl⟩
abbrev main_c_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_7 : Ref sig .tc := ⟨.hbm, 50, rfl⟩
abbrev main_call1_v0 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_8 : Ref sig .tc := ⟨.hbm, 55, rfl⟩
abbrev main_v32 : Ref sig .tc := ⟨.hbm, 56, rfl⟩
abbrev main_v33 : Ref sig .tc := ⟨.hbm, 57, rfl⟩
abbrev main_c_9 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_10 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_call2_cst : Ref sig .tc := ⟨.hbm, 74, rfl⟩
abbrev main_call2_v0 : Ref sig .tc := ⟨.hbm, 75, rfl⟩
abbrev main_v48 : Ref sig .tc := ⟨.hbm, 76, rfl⟩
abbrev main_c_11 : Ref sig .tc := ⟨.hbm, 77, rfl⟩
abbrev main_call3_v0 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_c_12 : Ref sig .tc := ⟨.hbm, 82, rfl⟩
abbrev main_v52 : Ref sig .tc := ⟨.hbm, 83, rfl⟩
abbrev main_v53 : Ref sig .tc := ⟨.hbm, 84, rfl⟩
abbrev main_c_13 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_14 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_call4_cst : Ref sig .tc := ⟨.hbm, 101, rfl⟩
abbrev main_call4_v0 : Ref sig .tc := ⟨.hbm, 102, rfl⟩
abbrev main_v68 : Ref sig .tc := ⟨.hbm, 103, rfl⟩
abbrev main_c_15 : Ref sig .tc := ⟨.hbm, 104, rfl⟩
abbrev main_call5_v0 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_c_16 : Ref sig .tc := ⟨.hbm, 109, rfl⟩
abbrev main_v72 : Ref sig .tc := ⟨.hbm, 110, rfl⟩
abbrev main_v73 : Ref sig .tc := ⟨.hbm, 111, rfl⟩
abbrev main_c_17 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_18 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_call6_cst : Ref sig .tc := ⟨.hbm, 128, rfl⟩
abbrev main_call6_v0 : Ref sig .tc := ⟨.hbm, 129, rfl⟩
abbrev main_v88 : Ref sig .tc := ⟨.hbm, 130, rfl⟩
abbrev main_c_19 : Ref sig .tc := ⟨.hbm, 131, rfl⟩
abbrev main_call7_v0 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_c_20 : Ref sig .tc := ⟨.hbm, 136, rfl⟩
abbrev main_v92 : Ref sig .tc := ⟨.hbm, 137, rfl⟩
abbrev main_v93 : Ref sig .tc := ⟨.hbm, 138, rfl⟩
abbrev main_c_21 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_cst_22 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![13], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8192x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![13], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S8192x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![13], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8192x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S8192x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  pads_S100000x128_S106496x128_064960_000 : S100000x128.Pads (![0, 0] : Fin 2 → Nat) ![6496, 0] ![0, 0] S106496x128
  h_S_ : 0 < S_.numel
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  slices_S106496x128_S100000x128_0_0 : S106496x128.Slices ![0, 0] S100000x128
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S8192x64_S8192x64_0_0 : ∀ a, (![0, 0] : Fin 2 → Nat) a + S8192x64.size a ≤ S8192x64.size a
  h_S8192x64 : 0 < S8192x64.numel
  slices_S106496x64_S100000x64_0_0 : S106496x64.Slices ![0, 0] S100000x64
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S8192x128_S128x128_S8192x128_1_0_0_1_n_n_wf : DotDims.WF S8192x128 S128x128 S8192x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S8192x128_S128x64_S8192x64_1_0_0_1_n_n_wf : DotDims.WF S8192x128 S128x64 S8192x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S106496x128.size a
  hwx0_0 : ∀ i : grid0.Coords, EltTy.bits .f32 = 32 ∨ (Rect.block (s := S106496x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S106496x128.size a
  hwx0_2 : ∀ i : grid0.Coords, EltTy.bits .f32 = 32 ∨ (Rect.block (s := S106496x128) S8192x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S106496x128.size a
  hwx1_0 : ∀ i : grid1.Coords, EltTy.bits .f32 = 32 ∨ (Rect.block (s := S106496x128) S8192x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x128.size a ≤ S106496x128.size a
  hwx1_2 : ∀ i : grid1.Coords, EltTy.bits .f32 = 32 ∨ (Rect.block (s := S106496x128) S8192x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x128.size a ≤ S106496x128.size a
  hwx2_0 : ∀ i : grid2.Coords, EltTy.bits .f32 = 32 ∨ (Rect.block (s := S106496x128) S8192x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8192x128.size a ≤ S106496x128.size a
  hwx2_2 : ∀ i : grid2.Coords, EltTy.bits .f32 = 32 ∨ (Rect.block (s := S106496x128) S8192x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8192x128.size a ≤ S106496x128.size a
  hwx3_0 : ∀ i : grid3.Coords, EltTy.bits .f32 = 32 ∨ (Rect.block (s := S106496x128) S8192x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x128.size a ≤ S64x128.size a
  hwx3_1 : ∀ i : grid3.Coords, EltTy.bits .f32 = 32 ∨ (Rect.block (s := S64x128) S64x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8192x64.size a ≤ S106496x64.size a
  hwx3_2 : ∀ i : grid3.Coords, EltTy.bits .f32 = 32 ∨ (Rect.block (s := S106496x64) S8192x64.size (cc3_transform_2 i) (hinb3_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_v29) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S8192x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S8192x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v69) S8192x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v70) S8192x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v89) S8192x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S64x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v90) S8192x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S1x128 : Shape := ⟨2, ![1, 128]⟩
abbrev S128x64 : Shape := ⟨2, ![128, 64]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 171
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S64x128, .f32⟩
  | 9 => ⟨S64, .f32⟩
  | 10 => ⟨S1x1600000, .i32⟩
  | 11 => ⟨S1600000, .i32⟩
  | 12 => ⟨S1x1600000, .i32⟩
  | 13 => ⟨S1600000, .i32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S100000, .i1⟩
  | 23 => ⟨S_, .f32⟩
  | 24 => ⟨S100000, .f32⟩
  | 25 => ⟨S100000, .f32⟩
  | 26 => ⟨S100000, .f32⟩
  | 27 => ⟨S_, .f32⟩
  | 28 => ⟨S100000, .f32⟩
  | 29 => ⟨S100000, .f32⟩
  | 30 => ⟨S100000, .f32⟩
  | 31 => ⟨S100000, .f32⟩
  | 32 => ⟨S_, .f32⟩
  | 33 => ⟨S100000, .f32⟩
  | 34 => ⟨S100000, .f32⟩
  | 35 => ⟨S100000, .f32⟩
  | 36 => ⟨S_, .f32⟩
  | 37 => ⟨S100000, .f32⟩
  | 38 => ⟨S100000, .f32⟩
  | 39 => ⟨S100000, .f32⟩
  | 40 => ⟨S100000, .f32⟩
  | 41 => ⟨S_, .f32⟩
  | 42 => ⟨S_, .f32⟩
  | 43 => ⟨S100000, .f32⟩
  | 44 => ⟨S100000, .f32⟩
  | 45 => ⟨S_, .f32⟩
  | 46 => ⟨S100000, .f32⟩
  | 47 => ⟨S100000, .i1⟩
  | 48 => ⟨S_, .f32⟩
  | 49 => ⟨S100000, .f32⟩
  | 50 => ⟨S100000, .f32⟩
  | 51 => ⟨S100000, .f32⟩
  | 52 => ⟨S_, .f32⟩
  | 53 => ⟨S100000, .f32⟩
  | 54 => ⟨S100000, .f32⟩
  | 55 => ⟨S_, .f32⟩
  | 56 => ⟨S_, .f32⟩
  | 57 => ⟨S100000, .f32⟩
  | 58 => ⟨S100000, .f32⟩
  | 59 => ⟨S_, .i32⟩
  | 60 => ⟨S1600000, .i32⟩
  | 61 => ⟨S1600000, .i1⟩
  | 62 => ⟨S_, .i32⟩
  | 63 => ⟨S1600000, .i32⟩
  | 64 => ⟨S1600000, .i32⟩
  | 65 => ⟨S1600000, .i32⟩
  | 66 => ⟨S1600000x1, .i32⟩
  | 67 => ⟨S1600000, .f32⟩
  | 68 => ⟨S_, .i32⟩
  | 69 => ⟨S1600000, .i32⟩
  | 70 => ⟨S1600000, .i1⟩
  | 71 => ⟨S_, .i32⟩
  | 72 => ⟨S1600000, .i32⟩
  | 73 => ⟨S1600000, .i32⟩
  | 74 => ⟨S1600000, .i32⟩
  | 75 => ⟨S1600000x1, .i32⟩
  | 76 => ⟨S1600000, .f32⟩
  | 77 => ⟨S1600000, .f32⟩
  | 78 => ⟨S128x128, .f32⟩
  | 79 => ⟨S100000x128, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000x128, .f32⟩
  | 89 => ⟨S1600000x1, .f32⟩
  | 90 => ⟨S1600000x128, .f32⟩
  | 91 => ⟨S1600000x128, .f32⟩
  | 92 => ⟨S_, .f32⟩
  | 93 => ⟨S100000x128, .f32⟩
  | 94 => ⟨S1600000x1, .i32⟩
  | 95 => ⟨S100000x128, .f32⟩
  | 96 => ⟨S1x128, .f32⟩
  | 97 => ⟨S100000x128, .f32⟩
  | 98 => ⟨S100000x128, .f32⟩
  | 99 => ⟨S_, .f32⟩
  | 100 => ⟨S100000x128, .f32⟩
  | 101 => ⟨S100000x128, .f32⟩
  | 102 => ⟨S128x128, .f32⟩
  | 103 => ⟨S100000x128, .f32⟩
  | 104 => ⟨S_, .i32⟩
  | 105 => ⟨S1600000, .i32⟩
  | 106 => ⟨S1600000, .i1⟩
  | 107 => ⟨S_, .i32⟩
  | 108 => ⟨S1600000, .i32⟩
  | 109 => ⟨S1600000, .i32⟩
  | 110 => ⟨S1600000, .i32⟩
  | 111 => ⟨S1600000x1, .i32⟩
  | 112 => ⟨S1600000x128, .f32⟩
  | 113 => ⟨S1600000x1, .f32⟩
  | 114 => ⟨S1600000x128, .f32⟩
  | 115 => ⟨S1600000x128, .f32⟩
  | 116 => ⟨S_, .f32⟩
  | 117 => ⟨S100000x128, .f32⟩
  | 118 => ⟨S1600000x1, .i32⟩
  | 119 => ⟨S100000x128, .f32⟩
  | 120 => ⟨S1x128, .f32⟩
  | 121 => ⟨S100000x128, .f32⟩
  | 122 => ⟨S100000x128, .f32⟩
  | 123 => ⟨S_, .f32⟩
  | 124 => ⟨S100000x128, .f32⟩
  | 125 => ⟨S100000x128, .f32⟩
  | 126 => ⟨S128x128, .f32⟩
  | 127 => ⟨S100000x128, .f32⟩
  | _ => ⟨S100000x128, .f32⟩

abbrev hbmTy0_1 (i : Nat) : BufTy := match i % 128 with
  | 0 => ⟨S_, .i32⟩
  | 1 => ⟨S1600000, .i32⟩
  | 2 => ⟨S1600000, .i1⟩
  | 3 => ⟨S_, .i32⟩
  | 4 => ⟨S1600000, .i32⟩
  | 5 => ⟨S1600000, .i32⟩
  | 6 => ⟨S1600000, .i32⟩
  | 7 => ⟨S1600000x1, .i32⟩
  | 8 => ⟨S1600000x128, .f32⟩
  | 9 => ⟨S1600000x1, .f32⟩
  | 10 => ⟨S1600000x128, .f32⟩
  | 11 => ⟨S1600000x128, .f32⟩
  | 12 => ⟨S_, .f32⟩
  | 13 => ⟨S100000x128, .f32⟩
  | 14 => ⟨S1600000x1, .i32⟩
  | 15 => ⟨S100000x128, .f32⟩
  | 16 => ⟨S1x128, .f32⟩
  | 17 => ⟨S100000x128, .f32⟩
  | 18 => ⟨S100000x128, .f32⟩
  | 19 => ⟨S_, .f32⟩
  | 20 => ⟨S100000x128, .f32⟩
  | 21 => ⟨S100000x128, .f32⟩
  | 22 => ⟨S128x64, .f32⟩
  | 23 => ⟨S100000x64, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000x64, .f32⟩
  | 33 => ⟨S1600000x1, .f32⟩
  | 34 => ⟨S1600000x64, .f32⟩
  | 35 => ⟨S1600000x64, .f32⟩
  | 36 => ⟨S_, .f32⟩
  | 37 => ⟨S100000x64, .f32⟩
  | 38 => ⟨S1600000x1, .i32⟩
  | 39 => ⟨S100000x64, .f32⟩
  | 40 => ⟨S1x64, .f32⟩
  | 41 => ⟨S100000x64, .f32⟩
  | 42 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_6 : Ref sig .tc := ⟨.hbm, 41, rfl⟩
abbrev main_call0_v0 : Ref sig .tc := ⟨.hbm, 42, rfl⟩
abbrev main_call0_v1 : Ref sig .tc := ⟨.hbm, 43, rfl⟩
abbrev main_v24 : Ref sig .tc := ⟨.hbm, 44, rfl⟩
abbrev main_cst_7 : Ref sig .tc := ⟨.hbm, 45, rfl⟩
abbrev main_v25 : Ref sig .tc := ⟨.hbm, 46, rfl⟩
abbrev main_v26 : Ref sig .tc := ⟨.hbm, 47, rfl⟩
abbrev main_cst_8 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_9 : Ref sig .tc := ⟨.hbm, 52, rfl⟩
abbrev main_v30 : Ref sig .tc := ⟨.hbm, 53, rfl⟩
abbrev main_v31 : Ref sig .tc := ⟨.hbm, 54, rfl⟩
abbrev main_cst_10 : Ref sig .tc := ⟨.hbm, 55, rfl⟩
abbrev main_call1_v0 : Ref sig .tc := ⟨.hbm, 56, rfl⟩
abbrev main_call1_v1 : Ref sig .tc := ⟨.hbm, 57, rfl⟩
abbrev main_v32 : Ref sig .tc := ⟨.hbm, 58, rfl⟩
abbrev main_c : Ref sig .tc := ⟨.hbm, 59, rfl⟩
abbrev main_v33 : Ref sig .tc := ⟨.hbm, 60, rfl⟩
abbrev main_v34 : Ref sig .tc := ⟨.hbm, 61, rfl⟩
abbrev main_c_11 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_c_12 : Ref sig .tc := ⟨.hbm, 68, rfl⟩
abbrev main_v40 : Ref sig .tc := ⟨.hbm, 69, rfl⟩
abbrev main_v41 : Ref sig .tc := ⟨.hbm, 70, rfl⟩
abbrev main_c_13 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_c_14 : Ref sig .tc := ⟨.hbm, 80, rfl⟩
abbrev main_v50 : Ref sig .tc := ⟨.hbm, 81, rfl⟩
abbrev main_v51 : Ref sig .tc := ⟨.hbm, 82, rfl⟩
abbrev main_c_15 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_16 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_call2_cst : Ref sig .tc := ⟨.hbm, 99, rfl⟩
abbrev main_call2_v0 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_c_17 : Ref sig .tc := ⟨.hbm, 104, rfl⟩
abbrev main_v69 : Ref sig .tc := ⟨.hbm, 105, rfl⟩
abbrev main_v70 : Ref sig .tc := ⟨.hbm, 106, rfl⟩
abbrev main_c_18 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_19 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_call3_cst : Ref sig .tc := ⟨.hbm, 123, rfl⟩
abbrev main_call3_v0 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_c_20 : Ref sig .tc := ⟨.hbm, 128, rfl⟩
abbrev main_v88 : Ref sig .tc := ⟨.hbm, 129, rfl⟩
abbrev main_v89 : Ref sig .tc := ⟨.hbm, 130, rfl⟩
abbrev main_c_21 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_cst_22 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_call4_cst : Ref sig .tc := ⟨.hbm, 147, rfl⟩
abbrev main_call4_v0 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_c_23 : Ref sig .tc := ⟨.hbm, 152, rfl⟩
abbrev main_v107 : Ref sig .tc := ⟨.hbm, 153, rfl⟩
abbrev main_v108 : Ref sig .tc := ⟨.hbm, 154, rfl⟩
abbrev main_c_24 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_cst_25 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  transposes_S128x128_S128x128_1_0 : S128x128.Transposes [1, 0] S128x128
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S64x128_S128x64_1_0 : S64x128.Transposes [1, 0] S128x64
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.HostStages.lean ====
import proofs.«406668_j31559419691025_4_alg».proof.Proof.Gen.KernelIdeal.Frame
import Idealize.ShloMosaic.Lib.StableHlo.Run

/-!
# The host operations around the four dense transforms, stage by stage

Between the pallas_calls the program is plain host arithmetic on whole arrays. Written as functions:

* srcOf e, dstOf e : the two rows of the edge list e (source and destination node of each edge);
* wrapIdx v : an index vector made ready for a gather (a negative index is counted from the end, 100000 added);
* degOf d : the number of edges arriving at each node (ones scattered and summed at the destinations d);
* invSqrtDeg g : g^(-1/2) at nodes with g > 0 (taken of max g 1), 0 elsewhere;
* edgeNorm s src dst : the product of s at an edge's two ends;
* agg128 t src dst nrm b (and agg64) : rows of t gathered at the sources, scaled by nrm, summed at the destinations, plus the bias b;
* relu128, padRows (6496 rows appended below the 100000), sliceRows128 and sliceRows64 (the first 100000 rows).

Each stretch of host operations is then read off the fold of its operations: what the next dense transform's operand
holds, as these functions of what the stretch found, and which buffers it leaves as they were.
-/

set_option maxRecDepth 16384

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]

/-! ## The functions -/

def srcOf (e : (⟨S2x1600000, .i32⟩ : BufTy).Contents (Elt F)) : (⟨S1600000, .i32⟩ : BufTy).Contents (Elt F) :=
  shapeCast S1600000 (extractStridedSlice S1x1600000 ![0, 0] e slices_S2x1600000_S1x1600000_0_0) shapeCasts_S1x1600000_S1600000

def dstOf (e : (⟨S2x1600000, .i32⟩ : BufTy).Contents (Elt F)) : (⟨S1600000, .i32⟩ : BufTy).Contents (Elt F) :=
  shapeCast S1600000 (extractStridedSlice S1x1600000 ![1, 0] e slices_S2x1600000_S1x1600000_1_0) shapeCasts_S1x1600000_S1600000

def wrapIdx (v : (⟨S1600000, .i32⟩ : BufTy).Contents (Elt F)) : (⟨S1600000x1, .i32⟩ : BufTy).Contents (Elt F) :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

def colIdx (v : (⟨S1600000, .i32⟩ : BufTy).Contents (Elt F)) : (⟨S1600000x1, .i32⟩ : BufTy).Contents (Elt F) :=
  broadcastInDim S1600000x1 ![0] bcast_S1600000_S1600000x1_0 v

def degOf (d : (⟨S1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant (F := F) S_ .f32 0x00000000#32)) (colIdx d)
    (broadcastInDim S1600000 ![] bcast_S_S1600000 (constant (F := F) S_ .f32 0x3F800000#32))

def invSqrtDeg (g : (⟨S100000, .f32⟩ : BufTy).Contents (Elt F)) : (⟨S100000, .f32⟩ : BufTy).Contents (Elt F) :=
  select (cmpf (F := F) .ogt g (broadcastInDim S100000 ![] bcast_S_S100000 (constant (F := F) S_ .f32 0x00000000#32)))
    (Host.rsqrt (F := F) (maximumf g (broadcastInDim S100000 ![] bcast_S_S100000 (constant (F := F) S_ .f32 0x3F800000#32))))
    (broadcastInDim S100000 ![] bcast_S_S100000 (id (constant (F := F) S_ .f32 0x00000000#32)))

def edgeNorm (s : (⟨S100000, .f32⟩ : BufTy).Contents (Elt F)) (src dst : (⟨S1600000, .i32⟩ : BufTy).Contents (Elt F)) : (⟨S1600000, .f32⟩ : BufTy).Contents (Elt F) :=
  mulf (Host.gather gather_S100000_S1600000x1_S1600000_n_0_n_n_0_1_1 s (wrapIdx src))
    (Host.gather gather_S100000_S1600000x1_S1600000_n_0_n_n_0_1_1 s (wrapIdx dst))

def agg128 (t : (⟨S100000x128, .f32⟩ : BufTy).Contents (Elt F)) (src dst : (⟨S1600000, .i32⟩ : BufTy).Contents (Elt F)) (nrm : (⟨S1600000, .f32⟩ : BufTy).Contents (Elt F)) (b : (⟨S128, .f32⟩ : BufTy).Contents (Elt F)) : (⟨S100000x128, .f32⟩ : BufTy).Contents (Elt F) :=
  addf (Host.scatterAdd scatter_S100000x128_S1600000x1_S1600000x128_1_0_0_1
      (broadcastInDim S100000x128 ![] bcast_S_S100000x128 (constant (F := F) S_ .f32 0x00000000#32)) (colIdx dst)
      (mulf (Host.gather gather_S100000x128_S1600000x1_S1600000x128_1_0_n_n_0_1_1128 t (wrapIdx src))
        (broadcastInDim S1600000x128 ![0, 1] bcast_S1600000x1_S1600000x128_0_1 (broadcastInDim S1600000x1 ![0] bcast_S1600000_S1600000x1_0 nrm))))
    (broadcastInDim S100000x128 ![0, 1] bcast_S1x128_S100000x128_0_1 (broadcastInDim S1x128 ![1] bcast_S128_S1x128_1 b))

def agg64 (t : (⟨S100000x64, .f32⟩ : BufTy).Contents (Elt F)) (src dst : (⟨S1600000, .i32⟩ : BufTy).Contents (Elt F)) (nrm : (⟨S1600000, .f32⟩ : BufTy).Contents (Elt F)) (b : (⟨S64, .f32⟩ : BufTy).Contents (Elt F)) : (⟨S100000x64, .f32⟩ : BufTy).Contents (Elt F) :=
  addf (Host.scatterAdd scatter_S100000x64_S1600000x1_S1600000x64_1_0_0_1
      (broadcastInDim S100000x64 ![] bcast_S_S100000x64 (constant (F := F) S_ .f32 0x00000000#32)) (colIdx dst)
      (mulf (Host.gather gather_S100000x64_S1600000x1_S1600000x64_1_0_n_n_0_1_164 t (wrapIdx src))
        (broadcastInDim S1600000x64 ![0, 1] bcast_S1600000x1_S1600000x64_0_1 (broadcastInDim S1600000x1 ![0] bcast_S1600000_S1600000x1_0 nrm))))
    (broadcastInDim S100000x64 ![0, 1] bcast_S1x64_S100000x64_0_1 (broadcastInDim S1x64 ![1] bcast_S64_S1x64_1 b))

def relu128 (x : (⟨S100000x128, .f32⟩ : BufTy).Contents (Elt F)) : (⟨S100000x128, .f32⟩ : BufTy).Contents (Elt F) :=
  maximumf x (broadcastInDim S100000x128 ![] bcast_S_S100000x128 (constant (F := F) S_ .f32 0x00000000#32))

def padRows (x : (⟨S100000x128, .f32⟩ : BufTy).Contents (Elt F)) : (⟨S106496x128, .f32⟩ : BufTy).Contents (Elt F) :=
  pad S106496x128 ![0, 0] ![6496, 0] ![0, 0] x (sitofp (F := F) .f32 (constantI S_ 32 0#32)) pads_S100000x128_S106496x128_064960_000 h_S_

def sliceRows128 (y : (⟨S106496x128, .f32⟩ : BufTy).Contents (Elt F)) : (⟨S100000x128, .f32⟩ : BufTy).Contents (Elt F) :=
  extractStridedSlice S100000x128 ![0, 0] y slices_S106496x128_S100000x128_0_0

def sliceRows64 (y : (⟨S106496x64, .f32⟩ : BufTy).Contents (Elt F)) : (⟨S100000x64, .f32⟩ : BufTy).Contents (Elt F) :=
  extractStridedSlice S100000x64 ![0, 0] y slices_S106496x64_S100000x64_0_0

/-! ## The first stretch: the edge list's rows, the normalisation, the first padded operand -/

/-- The contents after the host operations before the first dense transform, from the contents W before them. -/
abbrev St0 (W : Valuation τ sig (Elt F)) : Valuation τ sig (Elt F) :=
  StableHlo.after hostOps0_3 (StableHlo.after hostOps0_2 (StableHlo.after hostOps0_1 (StableHlo.after hostOps0 W)))

theorem St0_out (W : Valuation τ sig (Elt F)) : St0 W (Proc.devRef .tc main_v29) = padRows (W (Proc.devRef .tc main_arg0)) := by
  after_results_simp
  simp only [TRef.ofBuf, TRef.toBuf, cast_eq]
  rfl

theorem St0_src (W : Valuation τ sig (Elt F)) : St0 W (Proc.devRef .tc main_v1) = srcOf (W (Proc.devRef .tc main_arg1)) := by
  after_results_simp
  rfl

theorem St0_dst (W : Valuation τ sig (Elt F)) : St0 W (Proc.devRef .tc main_v3) = dstOf (W (Proc.devRef .tc main_arg1)) := by
  after_results_simp
  rfl

theorem St0_norm (W : Valuation τ sig (Elt F)) :
    St0 W (Proc.devRef .tc main_v28) = edgeNorm (invSqrtDeg (degOf (dstOf (W (Proc.devRef .tc main_arg1))))) (srcOf (W (Proc.devRef .tc main_arg1))) (dstOf (W (Proc.devRef .tc main_arg1))) := by
  after_results_simp
  simp only [TRef.ofBuf, TRef.toBuf, cast_eq]
  rfl

theorem St0_keep_main_arg2 (W : Valuation τ sig (Elt F)) : St0 W (Proc.devRef .tc main_arg2) = W (Proc.devRef .tc main_arg2) := by
  after_results_simp
theorem St0_keep_main_arg3 (W : Valuation τ sig (Elt F)) : St0 W (Proc.devRef .tc main_arg3) = W (Proc.devRef .tc main_arg3) := by
  after_results_simp
theorem St0_keep_main_arg4 (W : Valuation τ sig (Elt F)) : St0 W (Proc.devRef .tc main_arg4) = W (Proc.devRef .tc main_arg4) := by
  after_results_simp
theorem St0_keep_main_arg5 (W : Valuation τ sig (Elt F)) : St0 W (Proc.devRef .tc main_arg5) = W (Proc.devRef .tc main_arg5) := by
  after_results_simp
theorem St0_keep_main_arg6 (W : Valuation τ sig (Elt F)) : St0 W (Proc.devRef .tc main_arg6) = W (Proc.devRef .tc main_arg6) := by
  after_results_simp
theorem St0_keep_main_arg7 (W : Valuation τ sig (Elt F)) : St0 W (Proc.devRef .tc main_arg7) = W (Proc.devRef .tc main_arg7) := by
  after_results_simp
theorem St0_keep_main_arg8 (W : Valuation τ sig (Elt F)) : St0 W (Proc.devRef .tc main_arg8) = W (Proc.devRef .tc main_arg8) := by
  after_results_simp
theorem St0_keep_main_arg9 (W : Valuation τ sig (Elt F)) : St0 W (Proc.devRef .tc main_arg9) = W (Proc.devRef .tc main_arg9) := by
  after_results_simp

/-! ## The stretches between the dense transforms -/

/-- The contents after the second stretch of host operations (between the dense transforms of layers 0 and 1), from the contents W before it. -/
abbrev St1 (W : Valuation τ sig (Elt F)) : Valuation τ sig (Elt F) :=
  StableHlo.after hostOps1_3 (StableHlo.after hostOps1_2 (StableHlo.after hostOps1_1 (StableHlo.after hostOps1 W)))

/-- The next layer's padded operand is the padded, rectified aggregate of the sliced transform. -/
theorem St1_out (W : Valuation τ sig (Elt F)) :
    St1 W (Proc.devRef .tc main_v49) = padRows (relu128 (agg128 (sliceRows128 (W (Proc.devRef .tc main_v30))) (W (Proc.devRef .tc main_v1)) (W (Proc.devRef .tc main_v3)) (W (Proc.devRef .tc main_v28)) (W (Proc.devRef .tc main_arg3)))) := by
  after_results_simp
  simp only [TRef.ofBuf, TRef.toBuf, cast_eq]
  rfl

theorem St1_keep_main_v1 (W : Valuation τ sig (Elt F)) : St1 W (Proc.devRef .tc main_v1) = W (Proc.devRef .tc main_v1) := by
  after_results_simp
theorem St1_keep_main_v3 (W : Valuation τ sig (Elt F)) : St1 W (Proc.devRef .tc main_v3) = W (Proc.devRef .tc main_v3) := by
  after_results_simp
theorem St1_keep_main_v28 (W : Valuation τ sig (Elt F)) : St1 W (Proc.devRef .tc main_v28) = W (Proc.devRef .tc main_v28) := by
  after_results_simp
theorem St1_keep_main_arg4 (W : Valuation τ sig (Elt F)) : St1 W (Proc.devRef .tc main_arg4) = W (Proc.devRef .tc main_arg4) := by
  after_results_simp
theorem St1_keep_main_arg5 (W : Valuation τ sig (Elt F)) : St1 W (Proc.devRef .tc main_arg5) = W (Proc.devRef .tc main_arg5) := by
  after_results_simp
theorem St1_keep_main_arg6 (W : Valuation τ sig (Elt F)) : St1 W (Proc.devRef .tc main_arg6) = W (Proc.devRef .tc main_arg6) := by
  after_results_simp
theorem St1_keep_main_arg7 (W : Valuation τ sig (Elt F)) : St1 W (Proc.devRef .tc main_arg7) = W (Proc.devRef .tc main_arg7) := by
  after_results_simp
theorem St1_keep_main_arg8 (W : Valuation τ sig (Elt F)) : St1 W (Proc.devRef .tc main_arg8) = W (Proc.devRef .tc main_arg8) := by
  after_results_simp
theorem St1_keep_main_arg9 (W : Valuation τ sig (Elt F)) : St1 W (Proc.devRef .tc main_arg9) = W (Proc.devRef .tc main_arg9) := by
  after_results_simp

/-- The contents after the third stretch of host operations (between the dense transforms of layers 1 and 2), from the contents W before it. -/
abbrev St2 (W : Valuation τ sig (Elt F)) : Valuation τ sig (Elt F) :=
  StableHlo.after hostOps2_3 (StableHlo.after hostOps2_2 (StableHlo.after hostOps2_1 (StableHlo.after hostOps2 W)))

/-- The next layer's padded operand is the padded, rectified aggregate of the sliced transform. -/
theorem St2_out (W : Valuation τ sig (Elt F)) :
    St2 W (Proc.devRef .tc main_v69) = padRows (relu128 (agg128 (sliceRows128 (W (Proc.devRef .tc main_v50))) (W (Proc.devRef .tc main_v1)) (W (Proc.devRef .tc main_v3)) (W (Proc.devRef .tc main_v28)) (W (Proc.devRef .tc main_arg5)))) := by
  after_results_simp
  simp only [TRef.ofBuf, TRef.toBuf, cast_eq]
  rfl

theorem St2_keep_main_v1 (W : Valuation τ sig (Elt F)) : St2 W (Proc.devRef .tc main_v1) = W (Proc.devRef .tc main_v1) := by
  after_results_simp
theorem St2_keep_main_v3 (W : Valuation τ sig (Elt F)) : St2 W (Proc.devRef .tc main_v3) = W (Proc.devRef .tc main_v3) := by
  after_results_simp
theorem St2_keep_main_v28 (W : Valuation τ sig (Elt F)) : St2 W (Proc.devRef .tc main_v28) = W (Proc.devRef .tc main_v28) := by
  after_results_simp
theorem St2_keep_main_arg6 (W : Valuation τ sig (Elt F)) : St2 W (Proc.devRef .tc main_arg6) = W (Proc.devRef .tc main_arg6) := by
  after_results_simp
theorem St2_keep_main_arg7 (W : Valuation τ sig (Elt F)) : St2 W (Proc.devRef .tc main_arg7) = W (Proc.devRef .tc main_arg7) := by
  after_results_simp
theorem St2_keep_main_arg8 (W : Valuation τ sig (Elt F)) : St2 W (Proc.devRef .tc main_arg8) = W (Proc.devRef .tc main_arg8) := by
  after_results_simp
theorem St2_keep_main_arg9 (W : Valuation τ sig (Elt F)) : St2 W (Proc.devRef .tc main_arg9) = W (Proc.devRef .tc main_arg9) := by
  after_results_simp

/-- The contents after the fourth stretch of host operations (between the dense transforms of layers 2 and 3), from the contents W before it. -/
abbrev St3 (W : Valuation τ sig (Elt F)) : Valuation τ sig (Elt F) :=
  StableHlo.after hostOps3_3 (StableHlo.after hostOps3_2 (StableHlo.after hostOps3_1 (StableHlo.after hostOps3 W)))

/-- The next layer's padded operand is the padded, rectified aggregate of the sliced transform. -/
theorem St3_out (W : Valuation τ sig (Elt F)) :
    St3 W (Proc.devRef .tc main_v89) = padRows (relu128 (agg128 (sliceRows128 (W (Proc.devRef .tc main_v70))) (W (Proc.devRef .tc main_v1)) (W (Proc.devRef .tc main_v3)) (W (Proc.devRef .tc main_v28)) (W (Proc.devRef .tc main_arg7)))) := by
  after_results_simp
  simp only [TRef.ofBuf, TRef.toBuf, cast_eq]
  rfl

theorem St3_keep_main_v1 (W : Valuation τ sig (Elt F)) : St3 W (Proc.devRef .tc main_v1) = W (Proc.devRef .tc main_v1) := by
  after_results_simp
theorem St3_keep_main_v3 (W : Valuation τ sig (Elt F)) : St3 W (Proc.devRef .tc main_v3) = W (Proc.devRef .tc main_v3) := by
  after_results_simp
theorem St3_keep_main_v28 (W : Valuation τ sig (Elt F)) : St3 W (Proc.devRef .tc main_v28) = W (Proc.devRef .tc main_v28) := by
  after_results_simp
theorem St3_keep_main_arg8 (W : Valuation τ sig (Elt F)) : St3 W (Proc.devRef .tc main_arg8) = W (Proc.devRef .tc main_arg8) := by
  after_results_simp
theorem St3_keep_main_arg9 (W : Valuation τ sig (Elt F)) : St3 W (Proc.devRef .tc main_arg9) = W (Proc.devRef .tc main_arg9) := by
  after_results_simp

/-! ## The last stretch: the result -/

/-- The result buffer is the aggregate of the sliced last transform. -/
theorem St4_out (W : Valuation τ sig (Elt F)) :
    StableHlo.after hostOps4 W (Proc.devRef .tc main_v107) = agg64 (sliceRows64 (W (Proc.devRef .tc main_v90))) (W (Proc.devRef .tc main_v1)) (W (Proc.devRef .tc main_v3)) (W (Proc.devRef .tc main_v28)) (W (Proc.devRef .tc main_arg9)) := by
  after_results_simp
  rfl

end Cert.KernelIdeal.Host

end
-- ==== Proof.Dense0.lean ====
import proofs.«406668_j31559419691025_4_alg».proof.Proof.Gen.KernelIdeal.Frame
import Idealize.ShloMosaic.Lib.Pipeline.Value
import Idealize.ShloMosaic.Lib.ValueIdx
import Idealize.ShloMosaic.PureOps.Ideal.Laws

/-!
# The dense transform of one layer, read as one whole-array function

The layer's pallas_call walks the 13 row blocks of its padded operand x (106496 rows of 128 input features,
8192 rows to a block) with the whole weight matrix w (one row per output feature, 128 input features to a row)
staged beside each block, and stores the product of the block with the transposed weights into the matching row
block of the result. At the ideal values the rounding to bf16 is the identity and the product into a zero
accumulator is the plain sum, so the block stored at point t is the restriction to rows 8192 t ... 8192 t + 8191 of

  dense x w (r, o) = sum over k < 128 of x (r, k) * w (o, k).

The 13 blocks tile the 106496 rows, hence the result array IS dense x w.
-/

set_option maxRecDepth 16384

noncomputable section

namespace Cert.KernelIdeal.Dense0

open Cert.KernelIdeal Cert.KernelIdeal.Gen Idealize.ShloMosaic Idealize.ShloMosaic.TcCoe Idealize.SL.Sem
open Idealize.ShloMosaic.Pipeline (Dat)

/-! ## This layer's shapes -/

/-- One row block of the result. -/
abbrev OutBlk : Shape := S8192x128
/-- The weights: output features by input features. -/
abbrev WArr : Shape := S128x128
/-- The weights transposed: input features by output features. -/
abbrev WtArr : Shape := S128x128
/-- The whole padded result. -/
abbrev OutArr : Shape := S106496x128
/-- The number of output features. -/
local notation "nOut" => 128
/-- The block product's dimension record. -/
local notation "dd" => dot_S8192x128_S128x128_S8192x128_1_0_0_1_n_n

/-! ## The body's product at an index of the block -/

/-- Row j 0 of the operand block, input feature k. -/
abbrev blkX (j : OutBlk.Idx) (k : Fin 128) : S8192x128.Idx := fun a => match a with
  | ⟨0, _⟩ => ⟨(j 0).val, (j 0).isLt⟩
  | ⟨1, _⟩ => ⟨k.val, k.isLt⟩
/-- Output feature j 1 of the weights, input feature k. -/
abbrev blkW (j : OutBlk.Idx) (k : Fin 128) : WArr.Idx := fun a => match a with
  | ⟨0, _⟩ => ⟨(j 1).val, (j 1).isLt⟩
  | ⟨1, _⟩ => ⟨k.val, k.isLt⟩
/-- The same weight entry as the transposed matrix names it: (input feature, output feature). -/
abbrev blkWt (j : OutBlk.Idx) (k : Fin 128) : WtArr.Idx := fun a => match a with
  | ⟨0, _⟩ => ⟨k.val, k.isLt⟩
  | ⟨1, _⟩ => ⟨(j 1).val, (j 1).isLt⟩

theorem lhs_0 (i : OutBlk.Idx) (q : (dd).contr.Idx) : ((dd).lhsIdx i q 0).val = (i 0).val := by
  unfold DotDims.lhsIdx
  rw [dif_neg (show ¬(0 : Fin S8192x128.rank) ∈ (dd).lhsBatch by decide), dif_pos (show (0 : Fin S8192x128.rank) ∈ (dd).lhsNonContracting by decide)]
  rfl
theorem lhs_1 (i : OutBlk.Idx) (q : (dd).contr.Idx) : ((dd).lhsIdx i q 1).val = (q ⟨0, by decide⟩).val :=
  (dd).lhsIdx_val_of_single rfl i q
theorem rhs_0 (i : OutBlk.Idx) (q : (dd).contr.Idx) : ((dd).rhsIdx i q 0).val = (q ⟨0, by decide⟩).val :=
  (dd).rhsIdx_val_of_single rfl i q
theorem rhs_1 (i : OutBlk.Idx) (q : (dd).contr.Idx) : ((dd).rhsIdx i q 1).val = (i 1).val := by
  unfold DotDims.rhsIdx
  rw [dif_neg (show ¬(1 : Fin WtArr.rank) ∈ (dd).rhsBatch by decide), dif_pos (show (1 : Fin WtArr.rank) ∈ (dd).rhsNonContracting by decide)]
  rfl

/-- The stored value at (r, o) of the block is the inner product of row r of the operand block with row o of the
    weights: the formats' change is the identity, the transpose swaps the weight's coordinates, and the product into
    the zero accumulator is the sum over the 128 input features. -/
theorem pay_apply (x0 : Vec Ideal S8192x128 .f32) (x1 : Vec Ideal WArr .f32) (j : OutBlk.Idx) :
    k0_pay1 (F := Ideal) x0 x1 j = ∑ k : Fin 128, x0 (blkX j k) * x1 (blkW j k) := by
  unfold k0_pay1
  show FloatOps.matmul (dd) none _ _ (constant OutBlk .f32 0x00000000#32) j = _
  rw [Ideal.matmul_constant_zero_apply, ← Equiv.sum_comp (ValueIdx.contrEquiv1 (dd) 128 rfl rfl).symm]
  refine Finset.sum_congr rfl fun k _ => ?_
  have hk := ValueIdx.contrEquiv1_symm_val (dd) 128 rfl rfl k
  have el : (dd).lhsIdx j ((ValueIdx.contrEquiv1 (dd) 128 rfl rfl).symm k) = blkX j k := funext fun a => Fin.ext (by
    match a with
    | ⟨0, _⟩ => exact lhs_0 _ _
    | ⟨1, _⟩ => exact (lhs_1 _ _).trans hk)
  have er : (dd).rhsIdx j ((ValueIdx.contrEquiv1 (dd) 128 rfl rfl).symm k) = blkWt j k := funext fun a => Fin.ext (by
    match a with
    | ⟨0, _⟩ => exact (rhs_0 _ _).trans hk
    | ⟨1, _⟩ => exact rhs_1 _ _)
  rw [el, er]
  congr 1
  · exact congrFun (shapeCast_self x0 _) (blkX j k)
  · exact transpose_apply [1, 0] _ _ (blkWt j k) (blkW j k) (fun b => match b with
      | ⟨0, _⟩ => rfl
      | ⟨1, _⟩ => rfl)

/-! ## The whole-array function -/

/-- Row i 0 of the padded operand, input feature k. -/
abbrev rowX (i : OutArr.Idx) (k : Fin 128) : S106496x128.Idx := fun a => match a with
  | ⟨0, _⟩ => ⟨(i 0).val, (i 0).isLt⟩
  | ⟨1, _⟩ => ⟨k.val, k.isLt⟩
/-- Output feature i 1 of the weights, input feature k. -/
abbrev rowW (i : OutArr.Idx) (k : Fin 128) : WArr.Idx := fun a => match a with
  | ⟨0, _⟩ => ⟨(i 1).val, (i 1).isLt⟩
  | ⟨1, _⟩ => ⟨k.val, k.isLt⟩

/-- The padded operand times the transposed weights, entry by entry. -/
def dense (x : S106496x128.Idx → EReal) (w : WArr.Idx → EReal) : OutArr.Idx → EReal :=
  fun i => ∑ k : Fin 128, x (rowX i k) * w (rowW i k)

/-! ## From the blocks to the array -/

theorem hz : (![0, 0] : Fin 2 → Nat) = fun _ => 0 := funext fun a => by fin_cases a <;> rfl

/-- The printed index maps over the 13 grid points: the operand's and the result's row blocks move together with
    the point, the weights' block and every feature block stay at 0. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

variable (V : (c : Dev nD) → (b : Ref sig .tc) → Buf (Elt Ideal) ((c : Thread nD τ).loc b))

/-- The operand array and the weight array as the region finds them. -/
abbrev xArr (c : Dev nD) : S106496x128.Idx → EReal := V c (Pipeline.arrRef spec0 0)
abbrev wArr (c : Dev nD) : WArr.Idx → EReal := V c (Pipeline.arrRef spec0 1)

/-- What point t writes back is row block t of dense of the two arrays. -/
theorem flushed_eq (c : Dev nD) (t : Fin cfg0.N) :
    (dat0 V c).flushed 2 t = ((cfg0.win 2).blk t).view.read (Elt Ideal) (dense (xArr V c) (wArr V c)) := by
  show (cfg0.win 2).cut (grid0.coords t) ((dat0 V c).after 2 t) = _
  rw [after0_2]
  unfold out0_2
  rw [View.canon_unit_zero hz]
  simp only [View.ld_unit_zero (S := S8192x128) hz, View.ld_unit_zero (S := WArr) hz]
  obtain ⟨e0, e1, e2, e3, e4, e5⟩ := idx_facts t
  funext j
  show k0_pay1 (F := Ideal) (iblk0 V c 0 t) (iblk0 V c 1 t) j = dense (xArr V c) (wArr V c) (((cfg0.win 2).blk t).view.emb j)
  refine (pay_apply (iblk0 V c 0 t) (iblk0 V c 1 t) j).trans ?_
  unfold dense
  refine Finset.sum_congr rfl fun k _ => ?_
  have hx : ((cfg0.win 0).blk t).view.emb (blkX j k) = rowX (((cfg0.win 2).blk t).view.emb j) k := by
    funext a; apply Fin.ext
    match a with
    | ⟨0, _⟩ => show win0_0.index t (0 : Fin 2) * 8192 + 1 * (j 0).val = win0_2.index t (0 : Fin 2) * 8192 + 1 * (j 0).val; omega
    | ⟨1, _⟩ => show win0_0.index t (1 : Fin 2) * 128 + 1 * k.val = k.val; omega
  have hw : ((cfg0.win 1).blk t).view.emb (blkW j k) = rowW (((cfg0.win 2).blk t).view.emb j) k := by
    funext a; apply Fin.ext
    match a with
    | ⟨0, _⟩ => show win0_1.index t (0 : Fin 2) * nOut + 1 * (j 1).val = win0_2.index t (1 : Fin 2) * nOut + 1 * (j 1).val; omega
    | ⟨1, _⟩ => show win0_1.index t (1 : Fin 2) * 128 + 1 * k.val = k.val; omega
  show xArr V c (((cfg0.win 0).blk t).view.emb (blkX j k)) * wArr V c (((cfg0.win 1).blk t).view.emb (blkW j k)) = _
  rw [hx, hw]

/-- An index of the result array lies in point t's block iff each coordinate lies in the block's range. -/
theorem mem_blk (t : Fin cfg0.N) (i : OutArr.Idx) :
    i ∈ ((cfg0.win 2).blk t).view.set ↔ ∀ a : Fin 2, win0_2.index t a * OutBlk.size a ≤ (i a).val ∧ (i a).val < win0_2.index t a * OutBlk.size a + OutBlk.size a := by
  show i ∈ ((View.whole main_v30).slice (win0_2.rect t)).set ↔ _
  rw [View.set_slice_whole, Rect.mem_set_unit]
  exact Iff.rfl

/-- Every row of the result lies in the block of the point row / 8192. -/
theorem cover (i : OutArr.Idx) : ∃ t : Fin cfg0.N, (cfg0.win 2).flush t = true ∧ i ∈ ((cfg0.win 2).blk t).view.set := by
  have hi0 : (i 0).val < 106496 := (i 0).isLt
  have hi1 : (i 1).val < nOut := (i 1).isLt
  let t : Fin cfg0.N := ⟨(i 0).val / 8192, by show (i 0).val / 8192 < 13; omega⟩
  obtain ⟨e0, e1, e2, e3, e4, e5⟩ := idx_facts t
  have ht : t.val = (i 0).val / 8192 := rfl
  refine ⟨t, flush0_2 t, ?_⟩
  rw [mem_blk]
  intro a
  match a with
  | ⟨0, _⟩ => show win0_2.index t (0 : Fin 2) * 8192 ≤ (i 0).val ∧ (i 0).val < win0_2.index t (0 : Fin 2) * 8192 + 8192; omega
  | ⟨1, _⟩ => show win0_2.index t (1 : Fin 2) * nOut ≤ (i 1).val ∧ (i 1).val < win0_2.index t (1 : Fin 2) * nOut + nOut; omega

/-- The result array after the region is dense of the operand and weight arrays as the region found them. -/
theorem final (c : Dev nD) : (dat0 V c).arrAt 2 cfg0.N = dense (xArr V c) (wArr V c) :=
  (dat0 V c).arrAt_eq_of_cover 2 (dense (xArr V c) (wArr V c)) (fun t _ => flushed_eq V c t) cover

end Cert.KernelIdeal.Dense0

end
-- ==== Proof.Layers.lean ====
import proofs.«406668_j31559419691025_4_alg».proof.Proof.HostStages
import proofs.«406668_j31559419691025_4_alg».proof.Proof.Dense0
import proofs.«406668_j31559419691025_4_alg».proof.Proof.Dense1
import proofs.«406668_j31559419691025_4_alg».proof.Proof.Dense2
import proofs.«406668_j31559419691025_4_alg».proof.Proof.Dense3

/-!
# The result buffer as one term of the arguments

With x the node features, e the edge list, (w1, b1) ... (w4, b4) the layers' weights and biases:

  nrm e      = edgeNorm (invSqrtDeg (degOf (dstOf e))) (srcOf e) (dstOf e)
  hid1       = relu (agg (first 100000 rows of dense (x padded) w1) ... b1)
  hid2, hid3 = the same of hid1 with (w2, b2), of hid2 with (w3, b3)
  out        = agg64 (first 100000 rows of dense (hid3 padded) w4) ... b4

The run's buffer contents at the boundaries of its segments are walked forward: a stretch of host operations by its
stage lemma, a pallas_call by its region's whole-array function at the result and by "every other buffer as entered"
elsewhere. The edge rows, the normalisation and the later layers' weights and biases ride along unchanged.
-/

set_option maxRecDepth 16384

noncomputable section

namespace Cert.KernelIdeal.Layers

open Cert.KernelIdeal Cert.KernelIdeal.Gen Cert.KernelIdeal.Host Idealize.ShloMosaic Idealize.ShloMosaic.TcCoe Idealize.SL.Sem Idealize.ShloMosaic.StableHlo

/-! ## The layers -/

/-- The symmetric normalisation of each edge: the inverse square roots of the in-degrees at its two ends, multiplied. -/
def nrm (x1 : (⟨S2x1600000, .i32⟩ : BufTy).Contents (Elt Ideal)) : (⟨S1600000, .f32⟩ : BufTy).Contents (Elt Ideal) :=
  edgeNorm (invSqrtDeg (degOf (dstOf x1))) (srcOf x1) (dstOf x1)

def hid1 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) : (⟨S100000x128, .f32⟩ : BufTy).Contents (Elt Ideal) :=
  relu128 (agg128 (sliceRows128 (Dense0.dense (padRows x0) x2)) (srcOf x1) (dstOf x1) (nrm x1) x3)

def hid2 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) : (⟨S100000x128, .f32⟩ : BufTy).Contents (Elt Ideal) :=
  relu128 (agg128 (sliceRows128 (Dense1.dense (padRows (hid1 x0 x1 x2 x3)) x4)) (srcOf x1) (dstOf x1) (nrm x1) x5)

def hid3 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) : (⟨S100000x128, .f32⟩ : BufTy).Contents (Elt Ideal) :=
  relu128 (agg128 (sliceRows128 (Dense2.dense (padRows (hid2 x0 x1 x2 x3 x4 x5)) x6)) (srcOf x1) (dstOf x1) (nrm x1) x7)

def out (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S64x128, .f32⟩ : BufTy).Contents (Elt Ideal)) (x9 : (⟨S64, .f32⟩ : BufTy).Contents (Elt Ideal)) : (⟨S100000x64, .f32⟩ : BufTy).Contents (Elt Ideal) :=
  agg64 (sliceRows64 (Dense3.dense (padRows (hid3 x0 x1 x2 x3 x4 x5 x6 x7)) x8)) (srcOf x1) (dstOf x1) (nrm x1) x9

/-! ## The boundaries of the run's segments -/

variable (m : (ℓ : Loc nD τ sig) → Buf (Elt Ideal) ℓ) (ρ : Dev nD → PrngReg) (c : Dev nD)

/-! ### Entering the first pallas_call -/

theorem b4_main_v1 : W4 m ρ c (Proc.devRef .tc main_v1) = (srcOf (m ((c : Thread nD τ).loc main_arg1))) :=
  St0_src (W0 m ρ c)
theorem b4_main_v3 : W4 m ρ c (Proc.devRef .tc main_v3) = (dstOf (m ((c : Thread nD τ).loc main_arg1))) :=
  St0_dst (W0 m ρ c)
theorem b4_main_v28 : W4 m ρ c (Proc.devRef .tc main_v28) = (nrm (m ((c : Thread nD τ).loc main_arg1))) :=
  St0_norm (W0 m ρ c)
theorem b4_main_arg2 : W4 m ρ c (Proc.devRef .tc main_arg2) = (m ((c : Thread nD τ).loc main_arg2)) :=
  St0_keep_main_arg2 (W0 m ρ c)
theorem b4_main_arg3 : W4 m ρ c (Proc.devRef .tc main_arg3) = (m ((c : Thread nD τ).loc main_arg3)) :=
  St0_keep_main_arg3 (W0 m ρ c)
theorem b4_main_arg4 : W4 m ρ c (Proc.devRef .tc main_arg4) = (m ((c : Thread nD τ).loc main_arg4)) :=
  St0_keep_main_arg4 (W0 m ρ c)
theorem b4_main_arg5 : W4 m ρ c (Proc.devRef .tc main_arg5) = (m ((c : Thread nD τ).loc main_arg5)) :=
  St0_keep_main_arg5 (W0 m ρ c)
theorem b4_main_arg6 : W4 m ρ c (Proc.devRef .tc main_arg6) = (m ((c : Thread nD τ).loc main_arg6)) :=
  St0_keep_main_arg6 (W0 m ρ c)
theorem b4_main_arg7 : W4 m ρ c (Proc.devRef .tc main_arg7) = (m ((c : Thread nD τ).loc main_arg7)) :=
  St0_keep_main_arg7 (W0 m ρ c)
theorem b4_main_arg8 : W4 m ρ c (Proc.devRef .tc main_arg8) = (m ((c : Thread nD τ).loc main_arg8)) :=
  St0_keep_main_arg8 (W0 m ρ c)
theorem b4_main_arg9 : W4 m ρ c (Proc.devRef .tc main_arg9) = (m ((c : Thread nD τ).loc main_arg9)) :=
  St0_keep_main_arg9 (W0 m ρ c)
theorem b4_out : W4 m ρ c (Proc.devRef .tc main_v29) = padRows (m ((c : Thread nD τ).loc main_arg0)) :=
  St0_out (W0 m ρ c)

/-! ### Leaving pallas_call 0 -/

theorem b5_main_v1 : W5 m ρ c (Proc.devRef .tc main_v1) = (srcOf (m ((c : Thread nD τ).loc main_arg1))) :=
  (W5_of_ne m ρ c main_v1 (by decide)).trans (b4_main_v1 m ρ c)
theorem b5_main_v3 : W5 m ρ c (Proc.devRef .tc main_v3) = (dstOf (m ((c : Thread nD τ).loc main_arg1))) :=
  (W5_of_ne m ρ c main_v3 (by decide)).trans (b4_main_v3 m ρ c)
theorem b5_main_v28 : W5 m ρ c (Proc.devRef .tc main_v28) = (nrm (m ((c : Thread nD τ).loc main_arg1))) :=
  (W5_of_ne m ρ c main_v28 (by decide)).trans (b4_main_v28 m ρ c)
theorem b5_main_arg3 : W5 m ρ c (Proc.devRef .tc main_arg3) = (m ((c : Thread nD τ).loc main_arg3)) :=
  (W5_of_ne m ρ c main_arg3 (by decide)).trans (b4_main_arg3 m ρ c)
theorem b5_main_arg4 : W5 m ρ c (Proc.devRef .tc main_arg4) = (m ((c : Thread nD τ).loc main_arg4)) :=
  (W5_of_ne m ρ c main_arg4 (by decide)).trans (b4_main_arg4 m ρ c)
theorem b5_main_arg5 : W5 m ρ c (Proc.devRef .tc main_arg5) = (m ((c : Thread nD τ).loc main_arg5)) :=
  (W5_of_ne m ρ c main_arg5 (by decide)).trans (b4_main_arg5 m ρ c)
theorem b5_main_arg6 : W5 m ρ c (Proc.devRef .tc main_arg6) = (m ((c : Thread nD τ).loc main_arg6)) :=
  (W5_of_ne m ρ c main_arg6 (by decide)).trans (b4_main_arg6 m ρ c)
theorem b5_main_arg7 : W5 m ρ c (Proc.devRef .tc main_arg7) = (m ((c : Thread nD τ).loc main_arg7)) :=
  (W5_of_ne m ρ c main_arg7 (by decide)).trans (b4_main_arg7 m ρ c)
theorem b5_main_arg8 : W5 m ρ c (Proc.devRef .tc main_arg8) = (m ((c : Thread nD τ).loc main_arg8)) :=
  (W5_of_ne m ρ c main_arg8 (by decide)).trans (b4_main_arg8 m ρ c)
theorem b5_main_arg9 : W5 m ρ c (Proc.devRef .tc main_arg9) = (m ((c : Thread nD τ).loc main_arg9)) :=
  (W5_of_ne m ρ c main_arg9 (by decide)).trans (b4_main_arg9 m ρ c)
theorem b5_out : W5 m ρ c (Proc.devRef .tc main_v30) = Dense0.dense (padRows (m ((c : Thread nD τ).loc main_arg0))) (m ((c : Thread nD τ).loc main_arg2)) :=
  (W5_arr m ρ c 2).trans ((Dense0.final (V4 m ρ) c).trans (congrArg₂ Dense0.dense (b4_out m ρ c) (b4_main_arg2 m ρ c)))

/-! ### Entering pallas_call 1 -/

theorem b9_main_v1 : W9 m ρ c (Proc.devRef .tc main_v1) = (srcOf (m ((c : Thread nD τ).loc main_arg1))) :=
  (St1_keep_main_v1 (W5 m ρ c)).trans (b5_main_v1 m ρ c)
theorem b9_main_v3 : W9 m ρ c (Proc.devRef .tc main_v3) = (dstOf (m ((c : Thread nD τ).loc main_arg1))) :=
  (St1_keep_main_v3 (W5 m ρ c)).trans (b5_main_v3 m ρ c)
theorem b9_main_v28 : W9 m ρ c (Proc.devRef .tc main_v28) = (nrm (m ((c : Thread nD τ).loc main_arg1))) :=
  (St1_keep_main_v28 (W5 m ρ c)).trans (b5_main_v28 m ρ c)
theorem b9_main_arg4 : W9 m ρ c (Proc.devRef .tc main_arg4) = (m ((c : Thread nD τ).loc main_arg4)) :=
  (St1_keep_main_arg4 (W5 m ρ c)).trans (b5_main_arg4 m ρ c)
theorem b9_main_arg5 : W9 m ρ c (Proc.devRef .tc main_arg5) = (m ((c : Thread nD τ).loc main_arg5)) :=
  (St1_keep_main_arg5 (W5 m ρ c)).trans (b5_main_arg5 m ρ c)
theorem b9_main_arg6 : W9 m ρ c (Proc.devRef .tc main_arg6) = (m ((c : Thread nD τ).loc main_arg6)) :=
  (St1_keep_main_arg6 (W5 m ρ c)).trans (b5_main_arg6 m ρ c)
theorem b9_main_arg7 : W9 m ρ c (Proc.devRef .tc main_arg7) = (m ((c : Thread nD τ).loc main_arg7)) :=
  (St1_keep_main_arg7 (W5 m ρ c)).trans (b5_main_arg7 m ρ c)
theorem b9_main_arg8 : W9 m ρ c (Proc.devRef .tc main_arg8) = (m ((c : Thread nD τ).loc main_arg8)) :=
  (St1_keep_main_arg8 (W5 m ρ c)).trans (b5_main_arg8 m ρ c)
theorem b9_main_arg9 : W9 m ρ c (Proc.devRef .tc main_arg9) = (m ((c : Thread nD τ).loc main_arg9)) :=
  (St1_keep_main_arg9 (W5 m ρ c)).trans (b5_main_arg9 m ρ c)
theorem b9_out : W9 m ρ c (Proc.devRef .tc main_v49) = padRows (hid1 (m ((c : Thread nD τ).loc main_arg0)) (m ((c : Thread nD τ).loc main_arg1)) (m ((c : Thread nD τ).loc main_arg2)) (m ((c : Thread nD τ).loc main_arg3))) := by
  refine (St1_out (W5 m ρ c)).trans ?_
  rw [b5_out m ρ c, b5_main_v1 m ρ c, b5_main_v3 m ρ c, b5_main_v28 m ρ c, b5_main_arg3 m ρ c]
  rfl

/-! ### Leaving pallas_call 1 -/

theorem b10_main_v1 : W10 m ρ c (Proc.devRef .tc main_v1) = (srcOf (m ((c : Thread nD τ).loc main_arg1))) :=
  (W10_of_ne m ρ c main_v1 (by decide)).trans (b9_main_v1 m ρ c)
theorem b10_main_v3 : W10 m ρ c (Proc.devRef .tc main_v3) = (dstOf (m ((c : Thread nD τ).loc main_arg1))) :=
  (W10_of_ne m ρ c main_v3 (by decide)).trans (b9_main_v3 m ρ c)
theorem b10_main_v28 : W10 m ρ c (Proc.devRef .tc main_v28) = (nrm (m ((c : Thread nD τ).loc main_arg1))) :=
  (W10_of_ne m ρ c main_v28 (by decide)).trans (b9_main_v28 m ρ c)
theorem b10_main_arg5 : W10 m ρ c (Proc.devRef .tc main_arg5) = (m ((c : Thread nD τ).loc main_arg5)) :=
  (W10_of_ne m ρ c main_arg5 (by decide)).trans (b9_main_arg5 m ρ c)
theorem b10_main_arg6 : W10 m ρ c (Proc.devRef .tc main_arg6) = (m ((c : Thread nD τ).loc main_arg6)) :=
  (W10_of_ne m ρ c main_arg6 (by decide)).trans (b9_main_arg6 m ρ c)
theorem b10_main_arg7 : W10 m ρ c (Proc.devRef .tc main_arg7) = (m ((c : Thread nD τ).loc main_arg7)) :=
  (W10_of_ne m ρ c main_arg7 (by decide)).trans (b9_main_arg7 m ρ c)
theorem b10_main_arg8 : W10 m ρ c (Proc.devRef .tc main_arg8) = (m ((c : Thread nD τ).loc main_arg8)) :=
  (W10_of_ne m ρ c main_arg8 (by decide)).trans (b9_main_arg8 m ρ c)
theorem b10_main_arg9 : W10 m ρ c (Proc.devRef .tc main_arg9) = (m ((c : Thread nD τ).loc main_arg9)) :=
  (W10_of_ne m ρ c main_arg9 (by decide)).trans (b9_main_arg9 m ρ c)
theorem b10_out : W10 m ρ c (Proc.devRef .tc main_v50) = Dense1.dense (padRows (hid1 (m ((c : Thread nD τ).loc main_arg0)) (m ((c : Thread nD τ).loc main_arg1)) (m ((c : Thread nD τ).loc main_arg2)) (m ((c : Thread nD τ).loc main_arg3)))) (m ((c : Thread nD τ).loc main_arg4)) :=
  (W10_arr m ρ c 2).trans ((Dense1.final (V9 m ρ) c).trans (congrArg₂ Dense1.dense (b9_out m ρ c) (b9_main_arg4 m ρ c)))

/-! ### Entering pallas_call 2 -/

theorem b14_main_v1 : W14 m ρ c (Proc.devRef .tc main_v1) = (srcOf (m ((c : Thread nD τ).loc main_arg1))) :=
  (St2_keep_main_v1 (W10 m ρ c)).trans (b10_main_v1 m ρ c)
theorem b14_main_v3 : W14 m ρ c (Proc.devRef .tc main_v3) = (dstOf (m ((c : Thread nD τ).loc main_arg1))) :=
  (St2_keep_main_v3 (W10 m ρ c)).trans (b10_main_v3 m ρ c)
theorem b14_main_v28 : W14 m ρ c (Proc.devRef .tc main_v28) = (nrm (m ((c : Thread nD τ).loc main_arg1))) :=
  (St2_keep_main_v28 (W10 m ρ c)).trans (b10_main_v28 m ρ c)
theorem b14_main_arg6 : W14 m ρ c (Proc.devRef .tc main_arg6) = (m ((c : Thread nD τ).loc main_arg6)) :=
  (St2_keep_main_arg6 (W10 m ρ c)).trans (b10_main_arg6 m ρ c)
theorem b14_main_arg7 : W14 m ρ c (Proc.devRef .tc main_arg7) = (m ((c : Thread nD τ).loc main_arg7)) :=
  (St2_keep_main_arg7 (W10 m ρ c)).trans (b10_main_arg7 m ρ c)
theorem b14_main_arg8 : W14 m ρ c (Proc.devRef .tc main_arg8) = (m ((c : Thread nD τ).loc main_arg8)) :=
  (St2_keep_main_arg8 (W10 m ρ c)).trans (b10_main_arg8 m ρ c)
theorem b14_main_arg9 : W14 m ρ c (Proc.devRef .tc main_arg9) = (m ((c : Thread nD τ).loc main_arg9)) :=
  (St2_keep_main_arg9 (W10 m ρ c)).trans (b10_main_arg9 m ρ c)
theorem b14_out : W14 m ρ c (Proc.devRef .tc main_v69) = padRows (hid2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  refine (St2_out (W10 m ρ c)).trans ?_
  rw [b10_out m ρ c, b10_main_v1 m ρ c, b10_main_v3 m ρ c, b10_main_v28 m ρ c, b10_main_arg5 m ρ c]
  rfl

/-! ### Leaving pallas_call 2 -/

theorem b15_main_v1 : W15 m ρ c (Proc.devRef .tc main_v1) = (srcOf (m ((c : Thread nD τ).loc main_arg1))) :=
  (W15_of_ne m ρ c main_v1 (by decide)).trans (b14_main_v1 m ρ c)
theorem b15_main_v3 : W15 m ρ c (Proc.devRef .tc main_v3) = (dstOf (m ((c : Thread nD τ).loc main_arg1))) :=
  (W15_of_ne m ρ c main_v3 (by decide)).trans (b14_main_v3 m ρ c)
theorem b15_main_v28 : W15 m ρ c (Proc.devRef .tc main_v28) = (nrm (m ((c : Thread nD τ).loc main_arg1))) :=
  (W15_of_ne m ρ c main_v28 (by decide)).trans (b14_main_v28 m ρ c)
theorem b15_main_arg7 : W15 m ρ c (Proc.devRef .tc main_arg7) = (m ((c : Thread nD τ).loc main_arg7)) :=
  (W15_of_ne m ρ c main_arg7 (by decide)).trans (b14_main_arg7 m ρ c)
theorem b15_main_arg8 : W15 m ρ c (Proc.devRef .tc main_arg8) = (m ((c : Thread nD τ).loc main_arg8)) :=
  (W15_of_ne m ρ c main_arg8 (by decide)).trans (b14_main_arg8 m ρ c)
theorem b15_main_arg9 : W15 m ρ c (Proc.devRef .tc main_arg9) = (m ((c : Thread nD τ).loc main_arg9)) :=
  (W15_of_ne m ρ c main_arg9 (by decide)).trans (b14_main_arg9 m ρ c)
theorem b15_out : W15 m ρ c (Proc.devRef .tc main_v70) = Dense2.dense (padRows (hid2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))) (m ((c : Thread nD τ).loc main_arg6)) :=
  (W15_arr m ρ c 2).trans ((Dense2.final (V14 m ρ) c).trans (congrArg₂ Dense2.dense (b14_out m ρ c) (b14_main_arg6 m ρ c)))

/-! ### Entering pallas_call 3 -/

theorem b19_main_v1 : W19 m ρ c (Proc.devRef .tc main_v1) = (srcOf (m ((c : Thread nD τ).loc main_arg1))) :=
  (St3_keep_main_v1 (W15 m ρ c)).trans (b15_main_v1 m ρ c)
theorem b19_main_v3 : W19 m ρ c (Proc.devRef .tc main_v3) = (dstOf (m ((c : Thread nD τ).loc main_arg1))) :=
  (St3_keep_main_v3 (W15 m ρ c)).trans (b15_main_v3 m ρ c)
theorem b19_main_v28 : W19 m ρ c (Proc.devRef .tc main_v28) = (nrm (m ((c : Thread nD τ).loc main_arg1))) :=
  (St3_keep_main_v28 (W15 m ρ c)).trans (b15_main_v28 m ρ c)
theorem b19_main_arg8 : W19 m ρ c (Proc.devRef .tc main_arg8) = (m ((c : Thread nD τ).loc main_arg8)) :=
  (St3_keep_main_arg8 (W15 m ρ c)).trans (b15_main_arg8 m ρ c)
theorem b19_main_arg9 : W19 m ρ c (Proc.devRef .tc main_arg9) = (m ((c : Thread nD τ).loc main_arg9)) :=
  (St3_keep_main_arg9 (W15 m ρ c)).trans (b15_main_arg9 m ρ c)
theorem b19_out : W19 m ρ c (Proc.devRef .tc main_v89) = padRows (hid3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  refine (St3_out (W15 m ρ c)).trans ?_
  rw [b15_out m ρ c, b15_main_v1 m ρ c, b15_main_v3 m ρ c, b15_main_v28 m ρ c, b15_main_arg7 m ρ c]
  rfl

/-! ### Leaving pallas_call 3 -/

theorem b20_main_v1 : W20 m ρ c (Proc.devRef .tc main_v1) = (srcOf (m ((c : Thread nD τ).loc main_arg1))) :=
  (W20_of_ne m ρ c main_v1 (by decide)).trans (b19_main_v1 m ρ c)
theorem b20_main_v3 : W20 m ρ c (Proc.devRef .tc main_v3) = (dstOf (m ((c : Thread nD τ).loc main_arg1))) :=
  (W20_of_ne m ρ c main_v3 (by decide)).trans (b19_main_v3 m ρ c)
theorem b20_main_v28 : W20 m ρ c (Proc.devRef .tc main_v28) = (nrm (m ((c : Thread nD τ).loc main_arg1))) :=
  (W20_of_ne m ρ c main_v28 (by decide)).trans (b19_main_v28 m ρ c)
theorem b20_main_arg9 : W20 m ρ c (Proc.devRef .tc main_arg9) = (m ((c : Thread nD τ).loc main_arg9)) :=
  (W20_of_ne m ρ c main_arg9 (by decide)).trans (b19_main_arg9 m ρ c)
theorem b20_out : W20 m ρ c (Proc.devRef .tc main_v90) = Dense3.dense (padRows (hid3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))) (m ((c : Thread nD τ).loc main_arg8)) :=
  (W20_arr m ρ c 2).trans ((Dense3.final (V19 m ρ) c).trans (congrArg₂ Dense3.dense (b19_out m ρ c) (b19_main_arg8 m ρ c)))

/-! ### The result -/

/-- The result buffer at the end of the run is out of the arguments. -/
theorem result : W21 m ρ c (Proc.devRef .tc main_v107) = (out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  refine (St4_out (W20 m ρ c)).trans ?_
  rw [b20_out m ρ c, b20_main_v1 m ρ c, b20_main_v3 m ρ c, b20_main_v28 m ρ c, b20_main_arg9 m ρ c]
  rfl

end Cert.KernelIdeal.Layers

end
-- ==== Proof.InvSqrt.lean ====
import Idealize.ShloMosaic.PureOps.Ideal
import Idealize.ShloMosaic.PureOps.Ideal.Laws
import Idealize.ShloMosaic.Lib.IdealHost

/-!
# The inverse square root of a degree, two ways

One program takes rsqrt (max g 1), the other 1 / sqrt (max g 1). On the extended reals max g 1 is either +inf or a
real that is at least 1. At +inf both are 0 (the inverse of +inf). At a real r >= 1 the square root is a positive
real, so both are its real inverse. Hence the two agree at every g, finite or not.
-/

namespace Cert.InvSqrt

open Idealize.ShloMosaic

/-- rsqrt y = 1 / sqrt y at every extended real y >= 1. -/
theorem rsqrt_eq_div_sqrt_of_one_le (y : EReal) (hy : 1 ≤ y) : Ideal.rsqrt y = Ideal.div 1 (Ideal.sqrt y) := by
  induction y using EReal.rec with
  | bot => exact absurd hy (not_le.mpr (lt_of_lt_of_le EReal.bot_lt_zero zero_le_one))
  | top =>
    show (0 : EReal) = Ideal.div 1 ⊤
    unfold Ideal.div
    rw [if_neg (by simp), EReal.inv_top, mul_zero]
  | coe r =>
    have hr : (1 : ℝ) ≤ r := by exact_mod_cast hy
    have hpos : 0 < r := lt_of_lt_of_le one_pos hr
    have hs : 0 < Real.sqrt r := Real.sqrt_pos.mpr hpos
    have hsne : ((Real.sqrt r : ℝ) : EReal) ≠ 0 := by exact_mod_cast hs.ne'
    rw [Ideal.rsqrt_coe, if_neg (not_lt.mpr hpos.le), if_neg hpos.ne']
    show _ = Ideal.div 1 (if r < 0 then ⊥ else ((Real.sqrt r : ℝ) : EReal))
    rw [if_neg (not_lt.mpr hpos.le)]
    unfold Ideal.div
    rw [if_neg hsne, one_mul, EReal.coe_inv]

/-- The same at max g 1, for any g. -/
theorem rsqrt_max_one (g : EReal) : Ideal.rsqrt (max g 1) = Ideal.div 1 (Ideal.sqrt (max g 1)) :=
  rsqrt_eq_div_sqrt_of_one_le _ (le_max_right _ _)

end Cert.InvSqrt
-- ==== Proof.Bridge.lean ====
import proofs.«406668_j31559419691025_4_alg».proof.Proof.Layers
import proofs.«406668_j31559419691025_4_alg».proof.Proof.RefRead
import proofs.«406668_j31559419691025_4_alg».proof.Proof.InvSqrt
import Idealize.ShloMosaic.Lib.KernelVsHost
import Idealize.ShloMosaic.Lib.IdealHost

/-!
# The reference's stages are the kernel's layers

The reference computes the same network with one dot_general per layer on the unpadded features and with
1 / sqrt (max deg 1) where the kernel's program takes rsqrt (max deg 1). Two facts join the two sides:

* the inverse square roots agree entry by entry (Cert.InvSqrt), hence so do the edge normalisations;
* row r < 100000 of dense (x padded) w is row r of x times the transposed weights: the padding rows are never read
  by the first 100000 rows of the product, and both sides are the sum over the 128 input features of
  x (r, k) * w (o, k).

Everything else is the same host arithmetic applied to equal operands, so the reference's stages are, layer by layer,
the kernel's hid1, hid2, hid3 and out of the same arguments.
-/

set_option maxRecDepth 16384

noncomputable section

namespace Cert.Bridge

open Idealize.ShloMosaic Idealize.ShloMosaic.TcCoe
open Cert.KernelIdeal Cert.KernelIdeal.Host Cert.KernelIdeal.Layers
open Cert.ReferenceIdeal.ReadP

/-! ## The normalisation -/

/-- The reference's degree vector is the kernel program's. -/
theorem deg_eq (x1 : (⟨S2x1600000, .i32⟩ : BufTy).Contents (Elt Ideal)) :
    val_main_v7 (F := Ideal) x1 = degOf (dstOf x1) := rfl

/-- The reference's inverse square root of the degree at a node: 1 / sqrt (max g 1) where g > 0, else 0. -/
theorem ref_invSqrt_apply (x1 : (⟨S2x1600000, .i32⟩ : BufTy).Contents (Elt Ideal)) (i : S100000.Idx) :
    val_main_v32 (F := Ideal) x1 i
      = Scalar.select (FloatOps.cmpf (F := Ideal) (φ := .f32) .ogt (val_main_v7 (F := Ideal) x1 i) (0 : EReal))
          (Ideal.div 1 (Ideal.sqrt (max (val_main_v7 (F := Ideal) x1 i) 1))) 0 := by
  rw [val_main_v32_apply, val_main_v26_apply, val_main_v31_apply, val_main_v29_apply, val_main_v28_apply,
    val_main_v25_apply, val_main_v27_apply, val_main_v30_apply, val_main_call1_v1_apply, val_main_call1_v0_apply,
    val_main_cst_7_apply, val_main_cst_8_apply, val_main_cst_9_apply, val_main_cst_10_apply]
  simp only [Ideal.maximumf_def, Ideal.hostDivf_def, Ideal.hostUnary_sqrt_def, Ideal.ofBits_def, Ideal.ofBits_one_f32,
    Ideal.ofBits_zero_f32]

/-- A constant broadcast over the nodes reads the constant at every node. -/
theorem bcast_const (hb : (S_ : Shape).BroadcastsInDim S100000 ![]) (b : BitVec 32) (i : S100000.Idx) :
    broadcastInDim S100000 ![] hb (constant (F := Ideal) S_ .f32 b) i = Ideal.ofBits .f32 b := rfl

/-- The kernel program's: rsqrt (max g 1) where g > 0, else 0. -/
theorem invSqrtDeg_apply (g : (⟨S100000, .f32⟩ : BufTy).Contents (Elt Ideal)) (i : S100000.Idx) :
    invSqrtDeg (F := Ideal) g i
      = Scalar.select (FloatOps.cmpf (F := Ideal) (φ := .f32) .ogt (g i) (0 : EReal)) (Ideal.rsqrt (max (g i) 1)) 0 := by
  unfold invSqrtDeg
  rw [ValueIdx.select_apply, ValueIdx.cmpf_apply]
  unfold Host.rsqrt
  rw [ValueIdx.maximumf_apply]
  show Scalar.select (FloatOps.cmpf (F := Ideal) (φ := .f32) .ogt (g i) (Ideal.ofBits .f32 0x00000000#32))
      (Ideal.rsqrt (max (g i) (Ideal.ofBits .f32 0x3F800000#32))) (Ideal.ofBits .f32 0x00000000#32) = _
  rw [Ideal.ofBits_one_f32, Ideal.ofBits_zero_f32]

/-- 1 / sqrt (max deg 1) where deg > 0, else 0, is rsqrt (max deg 1) where deg > 0, else 0. -/
theorem invSqrtDeg_eq (x1 : (⟨S2x1600000, .i32⟩ : BufTy).Contents (Elt Ideal)) :
    val_main_v32 (F := Ideal) x1 = invSqrtDeg (degOf (dstOf x1)) := by
  funext i
  rw [ref_invSqrt_apply, invSqrtDeg_apply, deg_eq, Cert.InvSqrt.rsqrt_max_one]

/-- The reference's edge normalisation is the product of its inverse square roots at an edge's two ends. -/
theorem ref_nrm_unfold (x1 : (⟨S2x1600000, .i32⟩ : BufTy).Contents (Elt Ideal)) :
    val_main_v47 (F := Ideal) x1 = edgeNorm (val_main_v32 (F := Ideal) x1) (srcOf x1) (dstOf x1) := rfl

/-- Hence the edge normalisations agree. -/
theorem nrm_eq (x1 : (⟨S2x1600000, .i32⟩ : BufTy).Contents (Elt Ideal)) : val_main_v47 (F := Ideal) x1 = nrm x1 := by
  rw [ref_nrm_unfold, invSqrtDeg_eq]
  rfl

/-! ## The dense transform against dot_general -/

/-- Row i 0 < 100000 of the result, seen as a row of the padded result. -/
abbrev inPad128 (i : S100000x128.Idx) : S106496x128.Idx := fun a => match a with
  | ⟨0, _⟩ => ⟨(i 0).val, by have h := (i 0).isLt; show (i 0).val < 106496; exact lt_trans h (by decide)⟩
  | ⟨1, _⟩ => ⟨(i 1).val, (i 1).isLt⟩
abbrev inPad64 (i : S100000x64.Idx) : S106496x64.Idx := fun a => match a with
  | ⟨0, _⟩ => ⟨(i 0).val, by have h := (i 0).isLt; show (i 0).val < 106496; exact lt_trans h (by decide)⟩
  | ⟨1, _⟩ => ⟨(i 1).val, (i 1).isLt⟩

/-- The first 100000 rows of dense (x padded) w are x times the transposed weights (128 output features). -/
theorem dense0_eq (h : (⟨S100000x128, .f32⟩ : BufTy).Contents (Elt Ideal)) (w : (⟨S128x128, .f32⟩ : BufTy).Contents (Elt Ideal)) :
    sliceRows128 (Dense0.dense (padRows h) w) = val_main_v49 (F := Ideal) h w := by
  funext i
  rw [val_main_v49_apply]
  unfold sliceRows128
  rw [extractStridedSlice_apply ![0, 0] _ _ i (inPad128 i) (fun a => match a with
    | ⟨0, _⟩ => by show (i 0).val = 0 + (i 0).val; omega
    | ⟨1, _⟩ => by show (i 1).val = 0 + (i 1).val; omega)]
  unfold Dense0.dense
  refine Finset.sum_congr rfl fun k _ => ?_
  congr 1
  · unfold padRows
    exact pad_apply_of_inside ![0, 0] ![6496, 0] ![0, 0] h _ _ _ (Dense0.rowX (inPad128 i) k) (lidx_main_v49 i k) (fun a => match a with
      | ⟨0, _⟩ => by show (i 0).val = 0 + (i 0).val * (0 + 1); omega
      | ⟨1, _⟩ => by show k.val = 0 + k.val * (0 + 1); omega)
  · rw [val_main_v48_apply]
    exact congrArg w (funext fun a => match a with
      | ⟨0, _⟩ => rfl
      | ⟨1, _⟩ => rfl)

/-- Layer 2: the first 100000 rows of dense (the previous layer padded) w are the reference's product for that layer. -/
theorem dense1_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    sliceRows128 (Dense1.dense (padRows (val_main_v66 (F := Ideal) x0 x1 x2 x3)) x4) = val_main_v68 (F := Ideal) x0 x1 x2 x3 x4 := by
  funext i
  rw [val_main_v68_apply]
  generalize val_main_v66 (F := Ideal) x0 x1 x2 x3 = h
  unfold sliceRows128
  rw [extractStridedSlice_apply ![0, 0] _ _ i (inPad128 i) (fun a => match a with
    | ⟨0, _⟩ => by show (i 0).val = 0 + (i 0).val; omega
    | ⟨1, _⟩ => by show (i 1).val = 0 + (i 1).val; omega)]
  unfold Dense1.dense
  refine Finset.sum_congr rfl fun k _ => ?_
  congr 1
  · unfold padRows
    exact pad_apply_of_inside ![0, 0] ![6496, 0] ![0, 0] h _ _ _ (Dense1.rowX (inPad128 i) k) (lidx_main_v68 i k) (fun a => match a with
      | ⟨0, _⟩ => by show (i 0).val = 0 + (i 0).val * (0 + 1); omega
      | ⟨1, _⟩ => by show k.val = 0 + k.val * (0 + 1); omega)
  · rw [val_main_v67_apply]
    exact congrArg x4 (funext fun a => match a with
      | ⟨0, _⟩ => rfl
      | ⟨1, _⟩ => rfl)

/-- Layer 3: the first 100000 rows of dense (the previous layer padded) w are the reference's product for that layer. -/
theorem dense2_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) :
    sliceRows128 (Dense2.dense (padRows (val_main_v85 (F := Ideal) x0 x1 x2 x3 x4 x5)) x6) = val_main_v87 (F := Ideal) x0 x1 x2 x3 x4 x5 x6 := by
  funext i
  rw [val_main_v87_apply]
  generalize val_main_v85 (F := Ideal) x0 x1 x2 x3 x4 x5 = h
  unfold sliceRows128
  rw [extractStridedSlice_apply ![0, 0] _ _ i (inPad128 i) (fun a => match a with
    | ⟨0, _⟩ => by show (i 0).val = 0 + (i 0).val; omega
    | ⟨1, _⟩ => by show (i 1).val = 0 + (i 1).val; omega)]
  unfold Dense2.dense
  refine Finset.sum_congr rfl fun k _ => ?_
  congr 1
  · unfold padRows
    exact pad_apply_of_inside ![0, 0] ![6496, 0] ![0, 0] h _ _ _ (Dense2.rowX (inPad128 i) k) (lidx_main_v87 i k) (fun a => match a with
      | ⟨0, _⟩ => by show (i 0).val = 0 + (i 0).val * (0 + 1); omega
      | ⟨1, _⟩ => by show k.val = 0 + k.val * (0 + 1); omega)
  · rw [val_main_v86_apply]
    exact congrArg x6 (funext fun a => match a with
      | ⟨0, _⟩ => rfl
      | ⟨1, _⟩ => rfl)

/-- Layer 4: the first 100000 rows of dense (the previous layer padded) w are the reference's product for that layer. -/
theorem dense3_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S64x128, .f32⟩ : BufTy).Contents (Elt Ideal)) :
    sliceRows64 (Dense3.dense (padRows (val_main_v104 (F := Ideal) x0 x1 x2 x3 x4 x5 x6 x7)) x8) = val_main_v106 (F := Ideal) x0 x1 x2 x3 x4 x5 x6 x7 x8 := by
  funext i
  rw [val_main_v106_apply]
  generalize val_main_v104 (F := Ideal) x0 x1 x2 x3 x4 x5 x6 x7 = h
  unfold sliceRows64
  rw [extractStridedSlice_apply ![0, 0] _ _ i (inPad64 i) (fun a => match a with
    | ⟨0, _⟩ => by show (i 0).val = 0 + (i 0).val; omega
    | ⟨1, _⟩ => by show (i 1).val = 0 + (i 1).val; omega)]
  unfold Dense3.dense
  refine Finset.sum_congr rfl fun k _ => ?_
  congr 1
  · unfold padRows
    exact pad_apply_of_inside ![0, 0] ![6496, 0] ![0, 0] h _ _ _ (Dense3.rowX (inPad64 i) k) (lidx_main_v106 i k) (fun a => match a with
      | ⟨0, _⟩ => by show (i 0).val = 0 + (i 0).val * (0 + 1); omega
      | ⟨1, _⟩ => by show k.val = 0 + k.val * (0 + 1); omega)
  · rw [val_main_v105_apply]
    exact congrArg x8 (funext fun a => match a with
      | ⟨0, _⟩ => rfl
      | ⟨1, _⟩ => rfl)

/-! ## Layer by layer -/

/-- The reference's first hidden layer is the kernel's. -/
theorem hid1_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) : val_main_v66 (F := Ideal) x0 x1 x2 x3 = hid1 x0 x1 x2 x3 := by
  have e : val_main_v66 (F := Ideal) x0 x1 x2 x3
      = relu128 (agg128 (val_main_v49 (F := Ideal) x0 x2) (srcOf x1) (dstOf x1) (val_main_v47 (F := Ideal) x1) x3) := rfl
  rw [e, nrm_eq, ← dense0_eq]
  rfl

/-- The second. -/
theorem hid2_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) : val_main_v85 (F := Ideal) x0 x1 x2 x3 x4 x5 = hid2 x0 x1 x2 x3 x4 x5 := by
  have e : val_main_v85 (F := Ideal) x0 x1 x2 x3 x4 x5
      = relu128 (agg128 (val_main_v68 (F := Ideal) x0 x1 x2 x3 x4) (srcOf x1) (dstOf x1) (val_main_v47 (F := Ideal) x1) x5) := rfl
  rw [e, nrm_eq, ← dense1_eq, hid1_eq]
  rfl

/-- The third. -/
theorem hid3_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) : val_main_v104 (F := Ideal) x0 x1 x2 x3 x4 x5 x6 x7 = hid3 x0 x1 x2 x3 x4 x5 x6 x7 := by
  have e : val_main_v104 (F := Ideal) x0 x1 x2 x3 x4 x5 x6 x7
      = relu128 (agg128 (val_main_v87 (F := Ideal) x0 x1 x2 x3 x4 x5 x6) (srcOf x1) (dstOf x1) (val_main_v47 (F := Ideal) x1) x7) := rfl
  rw [e, nrm_eq, ← dense2_eq, hid2_eq]
  rfl

/-- The reference's result is the kernel's out of the same arguments. -/
theorem out_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S64x128, .f32⟩ : BufTy).Contents (Elt Ideal)) (x9 : (⟨S64, .f32⟩ : BufTy).Contents (Elt Ideal)) : val_main_v122 (F := Ideal) x0 x1 x2 x3 x4 x5 x6 x7 x8 x9 = out x0 x1 x2 x3 x4 x5 x6 x7 x8 x9 := by
  have e : val_main_v122 (F := Ideal) x0 x1 x2 x3 x4 x5 x6 x7 x8 x9
      = agg64 (val_main_v106 (F := Ideal) x0 x1 x2 x3 x4 x5 x6 x7 x8) (srcOf x1) (dstOf x1) (val_main_v47 (F := Ideal) x1) x9 := rfl
  rw [e, nrm_eq, ← dense3_eq, hid3_eq]
  rfl

end Cert.Bridge

end
-- ==== Proof.lean ====
/-
  A four-layer graph convolution: each layer multiplies the node features by its transposed weights, gathers the
  rows at the edges' sources, scales them by the symmetric degree normalisation, sums them at the edges' destinations,
  adds the bias, and (but for the last layer) rectifies.

  The kernel's program does the multiplication of each layer in a pallas_call over 13 row blocks of the features padded
  to 106496 rows, rounding its operands to bf16, and slices the first 100000 rows back; it takes the normalisation's
  inverse square root by rsqrt. The reference multiplies the unpadded features by one dot_general per layer and takes
  1 / sqrt. At the ideal values the rounding is the identity, a block product into a zero accumulator and the host's
  product are the same sum over the 128 input features (the rows appended by the padding are never read by the first
  100000 rows of the result), and rsqrt y = 1 / sqrt y at every y >= 1, which max deg 1 always is. So both programs end
  with the same array, Layers.out of the arguments.

  The frames of the two kernel programs are the generated ones. The reference's frame is its run with the result
  dropped. The idealization rewrote nothing, so preserves is trivial.
-/
import proofs.«406668_j31559419691025_4_alg».proof.Defs
import proofs.«406668_j31559419691025_4_alg».proof.Proof.Gen.Kernel
import proofs.«406668_j31559419691025_4_alg».proof.Proof.Gen.Kernel.Skeleton
import proofs.«406668_j31559419691025_4_alg».proof.Proof.Gen.Kernel.Launch
import proofs.«406668_j31559419691025_4_alg».proof.Proof.Gen.Kernel.Points
import proofs.«406668_j31559419691025_4_alg».proof.Proof.Gen.Kernel.Frame
import proofs.«406668_j31559419691025_4_alg».proof.Proof.Gen.KernelIdeal
import proofs.«406668_j31559419691025_4_alg».proof.Proof.Gen.KernelIdeal.Skeleton
import proofs.«406668_j31559419691025_4_alg».proof.Proof.Gen.KernelIdeal.Launch
import proofs.«406668_j31559419691025_4_alg».proof.Proof.Gen.KernelIdeal.Points
import proofs.«406668_j31559419691025_4_alg».proof.Proof.Gen.KernelIdeal.Frame
import proofs.«406668_j31559419691025_4_alg».proof.Proof.Gen.ReferenceIdeal
import proofs.«406668_j31559419691025_4_alg».proof.Proof.Gen.Pre_finite_inputs
import proofs.«406668_j31559419691025_4_alg».proof.Proof.KernelRun
import proofs.«406668_j31559419691025_4_alg».proof.Proof.Layers
import proofs.«406668_j31559419691025_4_alg».proof.Proof.RefRun
import proofs.«406668_j31559419691025_4_alg».proof.Proof.RefRead
import proofs.«406668_j31559419691025_4_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with Layers.out of the (agreeing) arguments in their result buffers. -/
theorem algebraic : Cert.algebraic_KernelIdeal_ReferenceIdeal := by
  intro m ρ m' ρ' _ hagree
  refine ⟨fun c => Cert.KernelIdeal.Layers.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Layers.result m ρ c), (h c).2⟩)
      (Cert.KernelIdeal.GenRun.run_result (F := Ideal) m ρ)
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5, h6, h7, h8, h9⟩ := hagree c
    rw [Cert.ReferenceIdeal.ReadP.val_main_v122_eq, Cert.Bridge.out_eq, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
